-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x96x224x224 : Shape := ⟨4, ![8, 96, 224, 224]⟩
abbrev S_ : Shape := ⟨0, ![]⟩

class Facts : Prop where
  bcast_S_S8x96x224x224 : S_.BroadcastsInDim S8x96x224x224 (![] : Fin 0 → Fin S8x96x224x224.rank)
  reducesTo_S8x96x224x224_S_d0_1_2_3 : S8x96x224x224.ReducesTo [0, 1, 2, 3] S_
  h_S_ : 0 < S_.numel

variable [Facts]

def fn {F : FTy → Type} [FloatOps F] (main_arg0 : FVec F S8x96x224x224 .f32) : IVec S_ 1 :=
  let main_v0 : FVec F S8x96x224x224 .f32 := Host.absf main_arg0
  let main_cst : FVec F S_ .f32 := constant S_ .f32 0x7F800000#32
  let main_v1 : FVec F S8x96x224x224 .f32 := broadcastInDim S8x96x224x224 ![] bcast_S_S8x96x224x224 main_cst
  let main_v2 : IVec S8x96x224x224 1 := cmpf .olt main_v0 main_v1
  let main_c : IVec S_ 1 := constantI S_ 1 1#1
  let main_v3 : IVec S_ 1 := (fun x v => Host.reduce IntOp.andi x v reducesTo_S8x96x224x224_S_d0_1_2_3 h_S_) main_v2 main_c
  main_v3
-- ==== Kernel.lean ====
abbrev S8x96x224x224 : Shape := ⟨4, ![8, 96, 224, 224]⟩
abbrev S8x224x224x96 : Shape := ⟨4, ![8, 224, 224, 96]⟩
abbrev S1x96x56x224 : Shape := ⟨4, ![1, 96, 56, 224]⟩
abbrev S1x224x56x96 : Shape := ⟨4, ![1, 224, 56, 96]⟩
abbrev S96x56x224 : Shape := ⟨3, ![96, 56, 224]⟩
abbrev S56x224 : Shape := ⟨2, ![56, 224]⟩
abbrev S1x56x224 : Shape := ⟨3, ![1, 56, 224]⟩
abbrev S96x1x224 : Shape := ⟨3, ![96, 1, 224]⟩
abbrev S96x224 : Shape := ⟨2, ![96, 224]⟩
abbrev S224x96 : Shape := ⟨2, ![224, 96]⟩
abbrev S1x224x1x96 : Shape := ⟨4, ![1, 224, 1, 96]⟩
abbrev S401408x96 : Shape := ⟨2, ![401408, 96]⟩

abbrev nBuf : Space → Nat
  | .hbm => 3
  | .vmem => 4
  | .smem => 0
  | _ => 0

abbrev bufTy : (tb : Table) → Fin (tcTables nBuf tb) → BufTy
  | .hbm, ⟨0, _⟩ => ⟨S8x96x224x224, .f32⟩
  | .hbm, ⟨1, _⟩ => ⟨S8x224x224x96, .f32⟩
  | .hbm, ⟨2, _⟩ => ⟨S401408x96, .f32⟩
  | .local _ .vmem, ⟨0, _⟩ => ⟨S1x96x56x224, .f32⟩
  | .local _ .vmem, ⟨1, _⟩ => ⟨S1x96x56x224, .f32⟩
  | .local _ .vmem, ⟨2, _⟩ => ⟨S1x224x56x96, .f32⟩
  | .local _ .vmem, ⟨3, _⟩ => ⟨S1x224x56x96, .f32⟩
  | _, _ => ⟨S8x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x96x56x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x224x56x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x96x56x224_S1x96x56x224_0_0_0_0 : ∀ a, (![0, 0, 0, 0] : Fin 4 → Nat) a + S1x96x56x224.size a ≤ S1x96x56x224.size a
  h_S1x96x56x224 : 0 < S1x96x56x224.numel
  shapeCasts_S1x96x56x224_S96x56x224 : S1x96x56x224.ShapeCasts S96x56x224
  reduces_S96x56x224_S56x224 : S96x56x224.Reduces [0] S56x224
  shapeCasts_S56x224_S1x56x224 : S56x224.ShapeCasts S1x56x224
  broadcasts_S1x56x224_S96x56x224 : S1x56x224.Broadcasts S96x56x224
  slices_S96x56x224_o0_0_0_S96x1x224 : S96x56x224.Slices ![0, 0, 0] S96x1x224
  shapeCasts_S96x1x224_S96x224 : S96x1x224.ShapeCasts S96x224
  transposes_S96x224_p1_0_S224x96 : S96x224.Transposes [1, 0] S224x96
  inb_S1x224x56x96_S1x224x1x96_0_0_0_0 : ∀ a, (![0, 0, 0, 0] : Fin 4 → Nat) a + S1x224x1x96.size a ≤ S1x224x56x96.size a
  h_S1x224x1x96 : 0 < S1x224x1x96.numel
  shapeCasts_S1x224x1x96_S224x96 : S1x224x1x96.ShapeCasts S224x96
  shapeCasts_S224x96_S1x224x1x96 : S224x96.ShapeCasts S1x224x1x96
  slices_S96x56x224_o0_1_0_S96x1x224 : S96x56x224.Slices ![0, 1, 0] S96x1x224
  inb_S1x224x56x96_S1x224x1x96_0_0_1_0 : ∀ a, (![0, 0, 1, 0] : Fin 4 → Nat) a + S1x224x1x96.size a ≤ S1x224x56x96.size a
  slices_S96x56x224_o0_2_0_S96x1x224 : S96x56x224.Slices ![0, 2, 0] S96x1x224
  inb_S1x224x56x96_S1x224x1x96_0_0_2_0 : ∀ a, (![0, 0, 2, 0] : Fin 4 → Nat) a + S1x224x1x96.size a ≤ S1x224x56x96.size a
  slices_S96x56x224_o0_3_0_S96x1x224 : S96x56x224.Slices ![0, 3, 0] S96x1x224
  inb_S1x224x56x96_S1x224x1x96_0_0_3_0 : ∀ a, (![0, 0, 3, 0] : Fin 4 → Nat) a + S1x224x1x96.size a ≤ S1x224x56x96.size a
  slices_S96x56x224_o0_4_0_S96x1x224 : S96x56x224.Slices ![0, 4, 0] S96x1x224
  inb_S1x224x56x96_S1x224x1x96_0_0_4_0 : ∀ a, (![0, 0, 4, 0] : Fin 4 → Nat) a + S1x224x1x96.size a ≤ S1x224x56x96.size a
  slices_S96x56x224_o0_5_0_S96x1x224 : S96x56x224.Slices ![0, 5, 0] S96x1x224
  inb_S1x224x56x96_S1x224x1x96_0_0_5_0 : ∀ a, (![0, 0, 5, 0] : Fin 4 → Nat) a + S1x224x1x96.size a ≤ S1x224x56x96.size a
  slices_S96x56x224_o0_6_0_S96x1x224 : S96x56x224.Slices ![0, 6, 0] S96x1x224
  inb_S1x224x56x96_S1x224x1x96_0_0_6_0 : ∀ a, (![0, 0, 6, 0] : Fin 4 → Nat) a + S1x224x1x96.size a ≤ S1x224x56x96.size a
  slices_S96x56x224_o0_7_0_S96x1x224 : S96x56x224.Slices ![0, 7, 0] S96x1x224
  inb_S1x224x56x96_S1x224x1x96_0_0_7_0 : ∀ a, (![0, 0, 7, 0] : Fin 4 → Nat) a + S1x224x1x96.size a ≤ S1x224x56x96.size a
  slices_S96x56x224_o0_8_0_S96x1x224 : S96x56x224.Slices ![0, 8, 0] S96x1x224
  inb_S1x224x56x96_S1x224x1x96_0_0_8_0 : ∀ a, (![0, 0, 8, 0] : Fin 4 → Nat) a + S1x224x1x96.size a ≤ S1x224x56x96.size a
  slices_S96x56x224_o0_9_0_S96x1x224 : S96x56x224.Slices ![0, 9, 0] S96x1x224
  inb_S1x224x56x96_S1x224x1x96_0_0_9_0 : ∀ a, (![0, 0, 9, 0] : Fin 4 → Nat) a + S1x224x1x96.size a ≤ S1x224x56x96.size a
  slices_S96x56x224_o0_10_0_S96x1x224 : S96x56x224.Slices ![0, 10, 0] S96x1x224
  inb_S1x224x56x96_S1x224x1x96_0_0_10_0 : ∀ a, (![0, 0, 10, 0] : Fin 4 → Nat) a + S1x224x1x96.size a ≤ S1x224x56x96.size a
  slices_S96x56x224_o0_11_0_S96x1x224 : S96x56x224.Slices ![0, 11, 0] S96x1x224
  inb_S1x224x56x96_S1x224x1x96_0_0_11_0 : ∀ a, (![0, 0, 11, 0] : Fin 4 → Nat) a + S1x224x1x96.size a ≤ S1x224x56x96.size a
  slices_S96x56x224_o0_12_0_S96x1x224 : S96x56x224.Slices ![0, 12, 0] S96x1x224
  inb_S1x224x56x96_S1x224x1x96_0_0_12_0 : ∀ a, (![0, 0, 12, 0] : Fin 4 → Nat) a + S1x224x1x96.size a ≤ S1x224x56x96.size a
  slices_S96x56x224_o0_13_0_S96x1x224 : S96x56x224.Slices ![0, 13, 0] S96x1x224
  inb_S1x224x56x96_S1x224x1x96_0_0_13_0 : ∀ a, (![0, 0, 13, 0] : Fin 4 → Nat) a + S1x224x1x96.size a ≤ S1x224x56x96.size a
  slices_S96x56x224_o0_14_0_S96x1x224 : S96x56x224.Slices ![0, 14, 0] S96x1x224
  inb_S1x224x56x96_S1x224x1x96_0_0_14_0 : ∀ a, (![0, 0, 14, 0] : Fin 4 → Nat) a + S1x224x1x96.size a ≤ S1x224x56x96.size a
  slices_S96x56x224_o0_15_0_S96x1x224 : S96x56x224.Slices ![0, 15, 0] S96x1x224
  inb_S1x224x56x96_S1x224x1x96_0_0_15_0 : ∀ a, (![0, 0, 15, 0] : Fin 4 → Nat) a + S1x224x1x96.size a ≤ S1x224x56x96.size a
  slices_S96x56x224_o0_16_0_S96x1x224 : S96x56x224.Slices ![0, 16, 0] S96x1x224
  inb_S1x224x56x96_S1x224x1x96_0_0_16_0 : ∀ a, (![0, 0, 16, 0] : Fin 4 → Nat) a + S1x224x1x96.size a ≤ S1x224x56x96.size a
  slices_S96x56x224_o0_17_0_S96x1x224 : S96x56x224.Slices ![0, 17, 0] S96x1x224
  inb_S1x224x56x96_S1x224x1x96_0_0_17_0 : ∀ a, (![0, 0, 17, 0] : Fin 4 → Nat) a + S1x224x1x96.size a ≤ S1x224x56x96.size a
  slices_S96x56x224_o0_18_0_S96x1x224 : S96x56x224.Slices ![0, 18, 0] S96x1x224
  inb_S1x224x56x96_S1x224x1x96_0_0_18_0 : ∀ a, (![0, 0, 18, 0] : Fin 4 → Nat) a + S1x224x1x96.size a ≤ S1x224x56x96.size a
  slices_S96x56x224_o0_19_0_S96x1x224 : S96x56x224.Slices ![0, 19, 0] S96x1x224
  inb_S1x224x56x96_S1x224x1x96_0_0_19_0 : ∀ a, (![0, 0, 19, 0] : Fin 4 → Nat) a + S1x224x1x96.size a ≤ S1x224x56x96.size a
  slices_S96x56x224_o0_20_0_S96x1x224 : S96x56x224.Slices ![0, 20, 0] S96x1x224
  inb_S1x224x56x96_S1x224x1x96_0_0_20_0 : ∀ a, (![0, 0, 20, 0] : Fin 4 → Nat) a + S1x224x1x96.size a ≤ S1x224x56x96.size a
  slices_S96x56x224_o0_21_0_S96x1x224 : S96x56x224.Slices ![0, 21, 0] S96x1x224
  inb_S1x224x56x96_S1x224x1x96_0_0_21_0 : ∀ a, (![0, 0, 21, 0] : Fin 4 → Nat) a + S1x224x1x96.size a ≤ S1x224x56x96.size a
  slices_S96x56x224_o0_22_0_S96x1x224 : S96x56x224.Slices ![0, 22, 0] S96x1x224
  inb_S1x224x56x96_S1x224x1x96_0_0_22_0 : ∀ a, (![0, 0, 22, 0] : Fin 4 → Nat) a + S1x224x1x96.size a ≤ S1x224x56x96.size a
  slices_S96x56x224_o0_23_0_S96x1x224 : S96x56x224.Slices ![0, 23, 0] S96x1x224
  inb_S1x224x56x96_S1x224x1x96_0_0_23_0 : ∀ a, (![0, 0, 23, 0] : Fin 4 → Nat) a + S1x224x1x96.size a ≤ S1x224x56x96.size a
  slices_S96x56x224_o0_24_0_S96x1x224 : S96x56x224.Slices ![0, 24, 0] S96x1x224
  inb_S1x224x56x96_S1x224x1x96_0_0_24_0 : ∀ a, (![0, 0, 24, 0] : Fin 4 → Nat) a + S1x224x1x96.size a ≤ S1x224x56x96.size a
  slices_S96x56x224_o0_25_0_S96x1x224 : S96x56x224.Slices ![0, 25, 0] S96x1x224
  inb_S1x224x56x96_S1x224x1x96_0_0_25_0 : ∀ a, (![0, 0, 25, 0] : Fin 4 → Nat) a + S1x224x1x96.size a ≤ S1x224x56x96.size a
  slices_S96x56x224_o0_26_0_S96x1x224 : S96x56x224.Slices ![0, 26, 0] S96x1x224
  inb_S1x224x56x96_S1x224x1x96_0_0_26_0 : ∀ a, (![0, 0, 26, 0] : Fin 4 → Nat) a + S1x224x1x96.size a ≤ S1x224x56x96.size a
  slices_S96x56x224_o0_27_0_S96x1x224 : S96x56x224.Slices ![0, 27, 0] S96x1x224
  inb_S1x224x56x96_S1x224x1x96_0_0_27_0 : ∀ a, (![0, 0, 27, 0] : Fin 4 → Nat) a + S1x224x1x96.size a ≤ S1x224x56x96.size a
  slices_S96x56x224_o0_28_0_S96x1x224 : S96x56x224.Slices ![0, 28, 0] S96x1x224
  inb_S1x224x56x96_S1x224x1x96_0_0_28_0 : ∀ a, (![0, 0, 28, 0] : Fin 4 → Nat) a + S1x224x1x96.size a ≤ S1x224x56x96.size a
  slices_S96x56x224_o0_29_0_S96x1x224 : S96x56x224.Slices ![0, 29, 0] S96x1x224
  inb_S1x224x56x96_S1x224x1x96_0_0_29_0 : ∀ a, (![0, 0, 29, 0] : Fin 4 → Nat) a + S1x224x1x96.size a ≤ S1x224x56x96.size a
  slices_S96x56x224_o0_30_0_S96x1x224 : S96x56x224.Slices ![0, 30, 0] S96x1x224
  inb_S1x224x56x96_S1x224x1x96_0_0_30_0 : ∀ a, (![0, 0, 30, 0] : Fin 4 → Nat) a + S1x224x1x96.size a ≤ S1x224x56x96.size a
  slices_S96x56x224_o0_31_0_S96x1x224 : S96x56x224.Slices ![0, 31, 0] S96x1x224
  inb_S1x224x56x96_S1x224x1x96_0_0_31_0 : ∀ a, (![0, 0, 31, 0] : Fin 4 → Nat) a + S1x224x1x96.size a ≤ S1x224x56x96.size a
  slices_S96x56x224_o0_32_0_S96x1x224 : S96x56x224.Slices ![0, 32, 0] S96x1x224
  inb_S1x224x56x96_S1x224x1x96_0_0_32_0 : ∀ a, (![0, 0, 32, 0] : Fin 4 → Nat) a + S1x224x1x96.size a ≤ S1x224x56x96.size a
  slices_S96x56x224_o0_33_0_S96x1x224 : S96x56x224.Slices ![0, 33, 0] S96x1x224
  inb_S1x224x56x96_S1x224x1x96_0_0_33_0 : ∀ a, (![0, 0, 33, 0] : Fin 4 → Nat) a + S1x224x1x96.size a ≤ S1x224x56x96.size a
  slices_S96x56x224_o0_34_0_S96x1x224 : S96x56x224.Slices ![0, 34, 0] S96x1x224
  inb_S1x224x56x96_S1x224x1x96_0_0_34_0 : ∀ a, (![0, 0, 34, 0] : Fin 4 → Nat) a + S1x224x1x96.size a ≤ S1x224x56x96.size a
  slices_S96x56x224_o0_35_0_S96x1x224 : S96x56x224.Slices ![0, 35, 0] S96x1x224
  inb_S1x224x56x96_S1x224x1x96_0_0_35_0 : ∀ a, (![0, 0, 35, 0] : Fin 4 → Nat) a + S1x224x1x96.size a ≤ S1x224x56x96.size a
  slices_S96x56x224_o0_36_0_S96x1x224 : S96x56x224.Slices ![0, 36, 0] S96x1x224
  inb_S1x224x56x96_S1x224x1x96_0_0_36_0 : ∀ a, (![0, 0, 36, 0] : Fin 4 → Nat) a + S1x224x1x96.size a ≤ S1x224x56x96.size a
  slices_S96x56x224_o0_37_0_S96x1x224 : S96x56x224.Slices ![0, 37, 0] S96x1x224
  inb_S1x224x56x96_S1x224x1x96_0_0_37_0 : ∀ a, (![0, 0, 37, 0] : Fin 4 → Nat) a + S1x224x1x96.size a ≤ S1x224x56x96.size a
  slices_S96x56x224_o0_38_0_S96x1x224 : S96x56x224.Slices ![0, 38, 0] S96x1x224
  inb_S1x224x56x96_S1x224x1x96_0_0_38_0 : ∀ a, (![0, 0, 38, 0] : Fin 4 → Nat) a + S1x224x1x96.size a ≤ S1x224x56x96.size a
  slices_S96x56x224_o0_39_0_S96x1x224 : S96x56x224.Slices ![0, 39, 0] S96x1x224
  inb_S1x224x56x96_S1x224x1x96_0_0_39_0 : ∀ a, (![0, 0, 39, 0] : Fin 4 → Nat) a + S1x224x1x96.size a ≤ S1x224x56x96.size a
  slices_S96x56x224_o0_40_0_S96x1x224 : S96x56x224.Slices ![0, 40, 0] S96x1x224
  inb_S1x224x56x96_S1x224x1x96_0_0_40_0 : ∀ a, (![0, 0, 40, 0] : Fin 4 → Nat) a + S1x224x1x96.size a ≤ S1x224x56x96.size a
  slices_S96x56x224_o0_41_0_S96x1x224 : S96x56x224.Slices ![0, 41, 0] S96x1x224
  inb_S1x224x56x96_S1x224x1x96_0_0_41_0 : ∀ a, (![0, 0, 41, 0] : Fin 4 → Nat) a + S1x224x1x96.size a ≤ S1x224x56x96.size a
  slices_S96x56x224_o0_42_0_S96x1x224 : S96x56x224.Slices ![0, 42, 0] S96x1x224
  inb_S1x224x56x96_S1x224x1x96_0_0_42_0 : ∀ a, (![0, 0, 42, 0] : Fin 4 → Nat) a + S1x224x1x96.size a ≤ S1x224x56x96.size a
  slices_S96x56x224_o0_43_0_S96x1x224 : S96x56x224.Slices ![0, 43, 0] S96x1x224
  inb_S1x224x56x96_S1x224x1x96_0_0_43_0 : ∀ a, (![0, 0, 43, 0] : Fin 4 → Nat) a + S1x224x1x96.size a ≤ S1x224x56x96.size a
  slices_S96x56x224_o0_44_0_S96x1x224 : S96x56x224.Slices ![0, 44, 0] S96x1x224
  inb_S1x224x56x96_S1x224x1x96_0_0_44_0 : ∀ a, (![0, 0, 44, 0] : Fin 4 → Nat) a + S1x224x1x96.size a ≤ S1x224x56x96.size a
  slices_S96x56x224_o0_45_0_S96x1x224 : S96x56x224.Slices ![0, 45, 0] S96x1x224
  inb_S1x224x56x96_S1x224x1x96_0_0_45_0 : ∀ a, (![0, 0, 45, 0] : Fin 4 → Nat) a + S1x224x1x96.size a ≤ S1x224x56x96.size a
  slices_S96x56x224_o0_46_0_S96x1x224 : S96x56x224.Slices ![0, 46, 0] S96x1x224
  inb_S1x224x56x96_S1x224x1x96_0_0_46_0 : ∀ a, (![0, 0, 46, 0] : Fin 4 → Nat) a + S1x224x1x96.size a ≤ S1x224x56x96.size a
  slices_S96x56x224_o0_47_0_S96x1x224 : S96x56x224.Slices ![0, 47, 0] S96x1x224
  inb_S1x224x56x96_S1x224x1x96_0_0_47_0 : ∀ a, (![0, 0, 47, 0] : Fin 4 → Nat) a + S1x224x1x96.size a ≤ S1x224x56x96.size a
  slices_S96x56x224_o0_48_0_S96x1x224 : S96x56x224.Slices ![0, 48, 0] S96x1x224
  inb_S1x224x56x96_S1x224x1x96_0_0_48_0 : ∀ a, (![0, 0, 48, 0] : Fin 4 → Nat) a + S1x224x1x96.size a ≤ S1x224x56x96.size a
  slices_S96x56x224_o0_49_0_S96x1x224 : S96x56x224.Slices ![0, 49, 0] S96x1x224
  inb_S1x224x56x96_S1x224x1x96_0_0_49_0 : ∀ a, (![0, 0, 49, 0] : Fin 4 → Nat) a + S1x224x1x96.size a ≤ S1x224x56x96.size a
  slices_S96x56x224_o0_50_0_S96x1x224 : S96x56x224.Slices ![0, 50, 0] S96x1x224
  inb_S1x224x56x96_S1x224x1x96_0_0_50_0 : ∀ a, (![0, 0, 50, 0] : Fin 4 → Nat) a + S1x224x1x96.size a ≤ S1x224x56x96.size a
  slices_S96x56x224_o0_51_0_S96x1x224 : S96x56x224.Slices ![0, 51, 0] S96x1x224
  inb_S1x224x56x96_S1x224x1x96_0_0_51_0 : ∀ a, (![0, 0, 51, 0] : Fin 4 → Nat) a + S1x224x1x96.size a ≤ S1x224x56x96.size a
  slices_S96x56x224_o0_52_0_S96x1x224 : S96x56x224.Slices ![0, 52, 0] S96x1x224
  inb_S1x224x56x96_S1x224x1x96_0_0_52_0 : ∀ a, (![0, 0, 52, 0] : Fin 4 → Nat) a + S1x224x1x96.size a ≤ S1x224x56x96.size a
  slices_S96x56x224_o0_53_0_S96x1x224 : S96x56x224.Slices ![0, 53, 0] S96x1x224
  inb_S1x224x56x96_S1x224x1x96_0_0_53_0 : ∀ a, (![0, 0, 53, 0] : Fin 4 → Nat) a + S1x224x1x96.size a ≤ S1x224x56x96.size a
  slices_S96x56x224_o0_54_0_S96x1x224 : S96x56x224.Slices ![0, 54, 0] S96x1x224
  inb_S1x224x56x96_S1x224x1x96_0_0_54_0 : ∀ a, (![0, 0, 54, 0] : Fin 4 → Nat) a + S1x224x1x96.size a ≤ S1x224x56x96.size a
  slices_S96x56x224_o0_55_0_S96x1x224 : S96x56x224.Slices ![0, 55, 0] S96x1x224
  inb_S1x224x56x96_S1x224x1x96_0_0_55_0 : ∀ a, (![0, 0, 55, 0] : Fin 4 → Nat) a + S1x224x1x96.size a ≤ S1x224x56x96.size a
  shapeCasts_S8x224x224x96_S401408x96 : S8x224x224x96.ShapeCasts S401408x96
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x96x56x224.size a ≤ S8x96x224x224.size a
  hwx0_0 : ∀ i : grid0.Coords, EltTy.bits .f32 = 32 ∨ (Rect.block (s := S8x96x224x224) S1x96x56x224.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x224x56x96.size a ≤ S8x224x224x96.size a
  hwx0_1 : ∀ i : grid0.Coords, EltTy.bits .f32 = 32 ∨ (Rect.block (s := S8x224x224x96) S1x224x56x96.size (cc0_transform_1 i) (hinb0_1 i)).WholeWords (EltTy.packing .f32)

variable [Facts₀]

abbrev win0_0 : Pipeline.Window sig grid0 :=
  Pipeline.Window.ofSpec (Memref.whole main_arg0) S1x96x56x224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x224x56x96.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x96x224x224 : Shape := ⟨4, ![8, 96, 224, 224]⟩
abbrev S8x224x224x96 : Shape := ⟨4, ![8, 224, 224, 96]⟩
abbrev S401408x96 : Shape := ⟨2, ![401408, 96]⟩
abbrev S_ : Shape := ⟨0, ![]⟩
abbrev S401408 : Shape := ⟨1, ![401408]⟩
abbrev S401408x1 : Shape := ⟨2, ![401408, 1]⟩

abbrev nBuf : Space → Nat
  | .hbm => 18
  | .vmem => 0
  | .smem => 0
  | _ => 0

abbrev bufTy : (tb : Table) → Fin (tcTables nBuf tb) → BufTy
  | .hbm, ⟨0, _⟩ => ⟨S8x96x224x224, .f32⟩
  | .hbm, ⟨1, _⟩ => ⟨S8x224x224x96, .f32⟩
  | .hbm, ⟨2, _⟩ => ⟨S401408x96, .f32⟩
  | .hbm, ⟨3, _⟩ => ⟨S_, .f32⟩
  | .hbm, ⟨4, _⟩ => ⟨S401408, .f32⟩
  | .hbm, ⟨5, _⟩ => ⟨S_, .f32⟩
  | .hbm, ⟨6, _⟩ => ⟨S401408, .f32⟩
  | .hbm, ⟨7, _⟩ => ⟨S401408, .f32⟩
  | .hbm, ⟨8, _⟩ => ⟨S401408x1, .f32⟩
  | .hbm, ⟨9, _⟩ => ⟨S401408x96, .f32⟩
  | .hbm, ⟨10, _⟩ => ⟨S401408x96, .f32⟩
  | .hbm, ⟨11, _⟩ => ⟨S401408x96, .f32⟩
  | .hbm, ⟨12, _⟩ => ⟨S_, .f32⟩
  | .hbm, ⟨13, _⟩ => ⟨S401408, .f32⟩
  | .hbm, ⟨14, _⟩ => ⟨S401408x1, .f32⟩
  | .hbm, ⟨15, _⟩ => ⟨S401408x1, .f32⟩
  | .hbm, ⟨16, _⟩ => ⟨S401408x96, .f32⟩
  | .hbm, ⟨17, _⟩ => ⟨S401408x96, .f32⟩
  | _, _ => ⟨S8x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v2 : Ref sig .tc := ⟨.hbm, 17, rfl⟩

abbrev nD : Nat := 1
abbrev τ : Topo := Topo.v7x

variable {F : FTy → Type} [FloatOps F]

class Facts₀ : Prop where
  transposes_S8x96x224x224_S8x224x224x96_0_3_2_1 : S8x96x224x224.Transposes [0, 3, 2, 1] S8x224x224x96
  shapeCasts_S8x224x224x96_S401408x96 : S8x224x224x96.ShapeCasts S401408x96
  reducesTo_S401408x96_S401408_d1 : S401408x96.ReducesTo [1] S401408
  h_S_ : 0 < S_.numel
  bcast_S_S401408 : S_.BroadcastsInDim S401408 (![] : Fin 0 → Fin S401408.rank)
  bcast_S401408_S401408x1_0 : S401408.BroadcastsInDim S401408x1 (![0] : Fin 1 → Fin S401408x1.rank)
  bcast_S401408x1_S401408x96_0_1 : S401408x1.BroadcastsInDim S401408x96 (![0, 1] : Fin 2 → Fin S401408x96.rank)

variable [Facts₀]

class Facts : Prop extends Facts₀ where

variable [Facts]
-- ==== Proof.Spec.lean ====
/-
  Log-softmax over the channels of an image batch, as one function of the input array.

  For an input `X` of shape [8, 96, 224, 224] (batch, channel, row, column) and a pixel (b, h, w), write
  v k = X[b, k, h, w] for its vector of 96 channel values, M = max_k v k (from -∞) and S = ∑_k exp (v k - M).
  The result has one row per (b, w, h) — row number (b·224 + w)·224 + h — and one column per channel c, holding
  v c - (M + log S).  The other spelling, (v c - M) - log S, is the same extended real as soon as M is a real
  number, which it is when every v k is: subtracting a sum is subtracting its terms one after the other unless an
  infinity meets its opposite.
-/
import Idealize.ShloMosaic.PureOps.Ideal
import Idealize.ShloMosaic.PureOps.Ideal.Laws
import Idealize.ShloMosaic.Lib.ValueIdx

noncomputable section

namespace Cert.LogSoftmax

open Idealize.ShloMosaic Idealize.ShloMosaic.ValueIdx

/-- The largest of 96 values, folded from the value the pattern of -∞ denotes. -/
def vmax (v : Fin 96 → EReal) : EReal :=
  (Finset.univ : Finset (Fin 96)).fold max (Ideal.ofBits .f32 0xFF800000#32) v

/-- The sum of the exponentials of the values less their largest. -/
def vsum (v : Fin 96 → EReal) : EReal := ∑ k : Fin 96, Ideal.exp (v k - vmax v)

/-- Log-softmax of a vector at `c`: the value less (the largest plus the log of the sum). -/
def lsm (v : Fin 96 → EReal) (c : Fin 96) : EReal := v c - (vmax v + Ideal.log (vsum v))

/-- The same with the two subtractions made one after the other. -/
def lsm' (v : Fin 96 → EReal) (c : Fin 96) : EReal := (v c - vmax v) - Ideal.log (vsum v)

theorem ofBits_neg_inf : Ideal.ofBits .f32 0xFF800000#32 = (⊥ : EReal) := by
  simp [Ideal.ofBits, Ideal.ieee]

/-- The largest of real values is a real value: it is at least the first and below +∞ with all of them. -/
theorem vmax_real (v : Fin 96 → EReal) (hv : ∀ k, v k ≠ ⊥ ∧ v k ≠ ⊤) : vmax v ≠ ⊥ ∧ vmax v ≠ ⊤ := by
  constructor
  · have h : v 0 ≤ vmax v := (_root_.Finset.le_fold_max (s := Finset.univ) (f := v) (v 0)).mpr (Or.inr ⟨0, Finset.mem_univ _, le_rfl⟩)
    intro hb
    rw [hb] at h
    exact (hv 0).1 (le_bot_iff.mp h)
  · have h : vmax v < ⊤ := by
      unfold vmax
      rw [_root_.Finset.fold_max_lt]
      refine ⟨?_, fun k _ => lt_top_iff_ne_top.mpr (hv k).2⟩
      rw [ofBits_neg_inf]; exact bot_lt_top
    exact ne_of_lt h

/-- Subtracting a sum whose first term is real is subtracting its terms in turn. -/
theorem sub_add_real (a M L : EReal) (hM : M ≠ ⊥ ∧ M ≠ ⊤) : (a - M) - L = a - (M + L) := by
  rw [sub_eq_add_neg, sub_eq_add_neg, sub_eq_add_neg, EReal.neg_add (Or.inl hM.1) (Or.inl hM.2), sub_eq_add_neg,
    add_assoc]

/-- On real values the two spellings agree. -/
theorem lsm'_eq_lsm (v : Fin 96 → EReal) (hv : ∀ k, v k ≠ ⊥ ∧ v k ≠ ⊤) (c : Fin 96) : lsm' v c = lsm v c :=
  sub_add_real _ _ _ (vmax_real v hv)

/-- The channel values of pixel (b, h, w). -/
def chan (X : (⟨4, ![8, 96, 224, 224]⟩ : Shape).Idx → EReal) (b : Fin 8) (h w : Fin 224) : Fin 96 → EReal :=
  fun k => X (ix4 b k h w)

/-- The result with the batch, column, row and channel axes kept apart: entry (b, w, h, c). -/
def image (X : (⟨4, ![8, 96, 224, 224]⟩ : Shape).Idx → EReal) : (⟨4, ![8, 224, 224, 96]⟩ : Shape).Idx → EReal :=
  fun j => lsm (chan X ⟨(j 0).val, (j 0).isLt⟩ ⟨(j 2).val, (j 2).isLt⟩ ⟨(j 1).val, (j 1).isLt⟩) ⟨(j 3).val, (j 3).isLt⟩

/-- Row r of the result is pixel (b, h, w) with r = (b·224 + w)·224 + h. -/
theorem row_b (r : ℕ) (hr : r < 401408) : r / 50176 < 8 := by omega
theorem row_h (r : ℕ) : r % 224 < 224 := Nat.mod_lt _ (by decide)
theorem row_w (r : ℕ) : r / 224 % 224 < 224 := Nat.mod_lt _ (by decide)

/-- The channel values of the pixel of row r. -/
def rowchan (X : (⟨4, ![8, 96, 224, 224]⟩ : Shape).Idx → EReal) (r : Fin 401408) : Fin 96 → EReal :=
  chan X ⟨r.val / 50176, row_b _ r.isLt⟩ ⟨r.val % 224, row_h _⟩ ⟨r.val / 224 % 224, row_w _⟩

/-- The result: 401408 rows of 96 channels, row r the log-softmax of its pixel's channel values. -/
def result (X : (⟨4, ![8, 96, 224, 224]⟩ : Shape).Idx → EReal) : (⟨2, ![401408, 96]⟩ : Shape).Idx → EReal :=
  fun i => lsm (rowchan X ⟨(i 0).val, (i 0).isLt⟩) ⟨(i 1).val, (i 1).isLt⟩

end Cert.LogSoftmax

end
-- ==== Proof.RefValue.lean ====
/-
  The reference, read at an index.

  The reference moves the channel axis last ([8, 224, 224, 96]: batch, column, row, channel), flattens the first three
  axes into 401408 rows, and takes the log-softmax of every row: the row's largest value M (a maximum from -∞, then
  once more against -∞), the shifted row v - M, the sum S of its exponentials (from 0), and (v - M) - log S.
  Row r is pixel (b, h, w) with r = (b·224 + w)·224 + h, so each stage read at (r, k) is a function of that pixel's
  channel values, and the whole is the result of the specification in its second spelling; on real inputs the two
  spellings agree.
-/
import proofs.«131496_g53626961658373_cont_9to1c4b_865_29_alg».proof.Proof.RefRead
import proofs.«131496_g53626961658373_cont_9to1c4b_865_29_alg».proof.Proof.Spec
import Idealize.ShloMosaic.PureOps.Ideal.Laws
import Idealize.ShloMosaic.Lib.ValueIdx

noncomputable section

namespace Cert.ReferenceIdeal.RefValue

open Idealize.ShloMosaic Idealize.ShloMosaic.ValueIdx Cert.ReferenceIdeal Cert.ReferenceIdeal.Gen Cert.ReferenceIdeal.ReadP
open Cert.LogSoftmax

variable (X : (⟨S8x96x224x224, .f32⟩ : BufTy).Contents (Elt Ideal))

/-- The flattened, channel-last array at (r, k) is channel k of row r's pixel. -/
theorem flat_apply (r : Fin 401408) (k : Fin 96) : val_main_v1 (F := Ideal) X (ix2 r k) = rowchan X r k := by
  rw [val_main_v1_apply, val_main_v0_apply]
  unfold rowchan chan
  have hr := r.isLt
  have hk := k.isLt
  refine congrArg X (funext fun a => Fin.ext ?_)
  match a with
  | ⟨0, _⟩ => show (r.val * 96 + k.val) / 4816896 = r.val / 50176; omega
  | ⟨1, _⟩ => show (r.val * 96 + k.val) % 96 = k.val; omega
  | ⟨2, _⟩ => show (r.val * 96 + k.val) / 96 % 224 = r.val % 224; omega
  | ⟨3, _⟩ => show (r.val * 96 + k.val) / 21504 % 224 = r.val / 224 % 224; omega

/-- Reducing the rows' axis of length 96. -/
theorem reduces_row : S401408x96.Reduces [1] S401408 := by decide

theorem lift_row (r : Fin 401408) (k : Fin 96) : reduces_row.lift (ix1 r) k = ix2 r k :=
  funext fun a => Fin.ext (by match a with | ⟨0, _⟩ => rfl | ⟨1, _⟩ => rfl)

/-- The row's maximum from -∞ is the largest channel value of its pixel. -/
theorem rowmax_apply (r : Fin 401408) : val_main_call0_v0 (F := Ideal) X (ix1 r) = vmax (rowchan X r) := by
  unfold val_main_call0_v0
  refine (Host.reduce_eq_fold_single FloatOps.maximumf _ _ reducesTo_S401408x96_S401408_d1 reduces_row h_S_ (ix1 r)).trans ?_
  unfold vmax
  refine congrArg (fun f : Fin 96 → EReal => (Finset.univ : Finset (Fin 96)).fold max (Ideal.ofBits .f32 0xFF800000#32) f) ?_
  funext k
  exact (congrArg (val_main_v1 (F := Ideal) X) (lift_row r k)).trans (flat_apply X r k)

/-- Taking the maximum against -∞ once more changes nothing. -/
theorem rowmax2_apply (r : Fin 401408) : val_main_call0_v2 (F := Ideal) X (ix1 r) = vmax (rowchan X r) := by
  rw [val_main_call0_v2_apply, val_main_call0_v1_apply, val_main_call0_cst_0_apply, rowmax_apply]
  show max (Ideal.ofBits .f32 0xFF800000#32) _ = _
  rw [ofBits_neg_inf]
  exact max_eq_right bot_le

/-- The shifted row. -/
theorem shifted_apply (r : Fin 401408) (k : Fin 96) :
    val_main_call0_v5 (F := Ideal) X (ix2 r k) = rowchan X r k - vmax (rowchan X r) := by
  have e : idx_main_call0_v3 (idx_main_call0_v4 (ix2 r k)) = ix1 r :=
    funext fun a => Fin.ext (by match a with | ⟨0, _⟩ => rfl)
  rw [val_main_call0_v5_apply, flat_apply, val_main_call0_v4_apply, val_main_call0_v3_apply, e, rowmax2_apply]
  rfl

/-- The sum of the shifted row's exponentials, from 0. -/
theorem rowsum_apply (r : Fin 401408) : val_main_call0_v7 (F := Ideal) X (ix1 r) = vsum (rowchan X r) := by
  rw [val_main_call0_v7_apply, val_main_call0_cst_1_apply]
  show Ideal.ofBits .f32 0x00000000#32 + _ = _
  rw [Ideal.ofBits_zero_f32, zero_add]
  unfold vsum
  refine Finset.sum_congr rfl fun (k : Fin 96) _ => ?_
  have e : idx_main_call0_v7 (ix1 r) k = ix2 r k :=
    funext fun a => Fin.ext (by match a with | ⟨0, _⟩ => rfl | ⟨1, _⟩ => rfl)
  rw [e, val_main_call0_v6_apply, shifted_apply]
  rfl

/-- The reference's result at (r, c): the shifted value less the log of the sum. -/
theorem ref_apply (r : Fin 401408) (c : Fin 96) : val_main_v2 (F := Ideal) X (ix2 r c) = lsm' (rowchan X r) c := by
  have e : idx_main_call0_v8 (idx_main_call0_v10 (ix2 r c)) = ix1 r :=
    funext fun a => Fin.ext (by match a with | ⟨0, _⟩ => rfl)
  rw [val_main_v2_apply, shifted_apply, val_main_call0_v10_apply, val_main_call0_v9_apply, val_main_call0_v8_apply, e,
    rowsum_apply]
  rfl

/-- On real inputs the reference computes the specification's result. -/
theorem ref_eq (hX : ∀ j, X j ≠ ⊥ ∧ X j ≠ ⊤) : val_main_v2 (F := Ideal) X = result X := by
  funext i
  obtain ⟨r, c, rfl⟩ : ∃ (r : Fin 401408) (c : Fin 96), i = ix2 r c := ⟨i 0, i 1, eq_ix2 i⟩
  rw [ref_apply]
  exact lsm'_eq_lsm (rowchan X r) (fun k => hX _) c

end Cert.ReferenceIdeal.RefValue

end
-- ==== Proof.KBody.lean ====
/-
  What the kernel's body computes, read at an index.

  The body loads a block x of shape [1, 96, 56, 224] (one image, all channels, 56 rows, all columns), takes for each
  pixel (i, w) of the block the largest channel value M and the sum S of exp (x - M) over the channels, and forms
  y[c, i, w] = x[0, c, i, w] - (M + log S): the log-softmax of the pixel's channel vector, at channel c.
  Row i of y, transposed to [224, 96], is what the body stores at row i of the output block [1, 224, 56, 96].
-/
import proofs.«131496_g53626961658373_cont_9to1c4b_865_29_alg».proof.Proof.Gen.KernelIdeal.Skeleton
import proofs.«131496_g53626961658373_cont_9to1c4b_865_29_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.BodyValue

open Idealize.ShloMosaic Idealize.ShloMosaic.ValueIdx Cert.KernelIdeal Cert.KernelIdeal.Gen Cert.LogSoftmax
/-- The channel values of pixel (i, w) of a block. -/
def bchan (x : Vec Ideal S1x96x56x224 .f32) (i : Fin 56) (w : Fin 224) : Fin 96 → EReal := fun k => x (ix4 (0 : Fin 1) k i w)

/-- The block with its unit axis dropped. -/
theorem drop_apply (x : Vec Ideal S1x96x56x224 .f32) (c : Fin 96) (i : Fin 56) (w : Fin 224) :
    shapeCast S96x56x224 x shapeCasts_S1x96x56x224_S96x56x224 (ix3 c i w) = bchan x i w c :=
  shapeCast_1abc_abc_apply x shapeCasts_S1x96x56x224_S96x56x224 c i w

/-- The index of channel k above pixel (i, w). -/
theorem lift_eq (i : Fin 56) (w : Fin 224) (k : Fin 96) :
    reduces_S96x56x224_S56x224.lift (ix2 i w) k = ix3 k i w :=
  funext fun a => Fin.ext (by match a with | ⟨0, _⟩ => rfl | ⟨1, _⟩ => rfl | ⟨2, _⟩ => rfl)

/-- The reduction over the channel axis by maximum is the pixel's largest channel value. -/
theorem max_apply (x : Vec Ideal S1x96x56x224 .f32) (i : Fin 56) (w : Fin 224) :
    multiReduction (F := Ideal) .maximumf [0] S56x224 (shapeCast S96x56x224 x shapeCasts_S1x96x56x224_S96x56x224) 0xFF800000#32
      reduces_S96x56x224_S56x224 (.inl rfl) rfl (ix2 i w) = vmax (bchan x i w) := by
  refine (Ideal.multiReduction_maximumf_single _ _ reduces_S96x56x224_S56x224 (.inl rfl) rfl (ix2 i w)).trans ?_
  unfold vmax
  refine congrArg (fun f : Fin 96 → EReal => (Finset.univ : Finset (Fin 96)).fold max (Ideal.ofBits .f32 0xFF800000#32) f) ?_
  funext k
  exact (congrArg (shapeCast S96x56x224 x shapeCasts_S1x96x56x224_S96x56x224) (lift_eq i w k)).trans (drop_apply x k i w)

/-- A [1, 56, 224] value spread over the 96 channels reads, at (c, i, w), the value at (0, i, w). -/
theorem spread_apply (v : FVec Ideal S1x56x224 .f32) (c : Fin 96) (i : Fin 56) (w : Fin 224) :
    broadcastTo S96x56x224 v broadcasts_S1x56x224_S96x56x224 (ix3 c i w) = v (ix3 (0 : Fin 1) i w) :=
  broadcastTo_apply v broadcasts_S1x56x224_S96x56x224 (ix3 c i w) (ix3 (0 : Fin 1) i w)
    (fun a => by match a with | ⟨0, _⟩ => rfl | ⟨1, _⟩ => rfl | ⟨2, _⟩ => rfl)

/-- A [56, 224] value given a leading unit axis reads, at (0, i, w), the value at (i, w). -/
theorem unit_apply (v : FVec Ideal S56x224 .f32) (i : Fin 56) (w : Fin 224) :
    shapeCast S1x56x224 v shapeCasts_S56x224_S1x56x224 (ix3 (0 : Fin 1) i w) = v (ix2 i w) :=
  shapeCast_ab_1ab_apply v shapeCasts_S56x224_S1x56x224 0 i w

/-- The block less the pixels' largest values, exponentiated, summed over the channel axis: the pixel's sum. -/
theorem sum_apply (x : Vec Ideal S1x96x56x224 .f32) (i : Fin 56) (w : Fin 224) :
    multiReduction (F := Ideal) .add [0] S56x224
      (exp (subf (shapeCast S96x56x224 x shapeCasts_S1x96x56x224_S96x56x224)
        (broadcastTo S96x56x224 (shapeCast S1x56x224
          (multiReduction (F := Ideal) .maximumf [0] S56x224 (shapeCast S96x56x224 x shapeCasts_S1x96x56x224_S96x56x224) 0xFF800000#32
            reduces_S96x56x224_S56x224 (.inl rfl) rfl) shapeCasts_S56x224_S1x56x224) broadcasts_S1x56x224_S96x56x224)))
      0x00000000#32 reduces_S96x56x224_S56x224 (.inl rfl) rfl (ix2 i w) = vsum (bchan x i w) := by
  refine (Ideal.multiReduction_add_single _ _ reduces_S96x56x224_S56x224 (.inl rfl) rfl (ix2 i w)).trans ?_
  unfold vsum
  refine Finset.sum_congr rfl fun (k : Fin 96) _ => ?_
  refine (congrArg _ (lift_eq i w k)).trans ?_
  show Ideal.exp (shapeCast S96x56x224 x shapeCasts_S1x96x56x224_S96x56x224 (ix3 k i w)
    - broadcastTo S96x56x224 _ broadcasts_S1x56x224_S96x56x224 (ix3 k i w)) = _
  rw [drop_apply, spread_apply, unit_apply, max_apply]

/-- The body's value y at (c, i, w) is the log-softmax of pixel (i, w)'s channel values at channel c. -/
theorem y_apply (x : Vec Ideal S1x96x56x224 .f32) (c : Fin 96) (i : Fin 56) (w : Fin 224) :
    k0_pay5 (F := Ideal) x (ix3 c i w) = lsm (bchan x i w) c := by
  unfold k0_pay5 lsm
  dsimp only
  rw [subf_apply, drop_apply, spread_apply, addf_apply, unit_apply, max_apply]
  show _ - (_ + Ideal.log (shapeCast S1x56x224 _ shapeCasts_S56x224_S1x56x224 (ix3 (0 : Fin 1) i w))) = _
  rw [unit_apply, sum_apply]

/-- Row o₁ of a [96, 56, 224] value, transposed to [224, 96] and given two unit axes, reads at (0, w, 0, c) the value
    at (c, o₁, w). -/
theorem slab_apply (y : FVec Ideal S96x56x224 .f32) (o : Fin 3 → ℕ) (hs : S96x56x224.Slices o S96x1x224)
    (hi : o 1 < 56) (h0 : o 0 = 0) (h2 : o 2 = 0) (u : Fin 1) (w : Fin 224) (u' : Fin 1) (c : Fin 96) :
    shapeCast S1x224x1x96 (transpose S224x96 [1, 0] (shapeCast S96x224 (extractStridedSlice S96x1x224 o y hs)
      shapeCasts_S96x1x224_S96x224) transposes_S96x224_p1_0_S224x96) shapeCasts_S224x96_S1x224x1x96 (ix4 u w u' c)
      = y (ix3 c ⟨o 1, hi⟩ w) := by
  refine (shapeCast_apply _ shapeCasts_S224x96_S1x224x1x96 (ix4 u w u' c) (ix2 w c) ?_).trans ?_
  · rw [Shape.rowMajor_val_two, Shape.rowMajor_val_four]
    show w.val * 96 + c.val = ((u.val * 224 + w.val) * 1 + u'.val) * 96 + c.val
    have := u.isLt; have := u'.isLt; omega
  refine (transpose_ix2_apply _ transposes_S96x224_p1_0_S224x96 w c).trans ?_
  refine (shapeCast_apply _ shapeCasts_S96x1x224_S96x224 (ix2 c w) (ix3 c (0 : Fin 1) w) ?_).trans ?_
  · rw [Shape.rowMajor_val_three, Shape.rowMajor_val_two]
    show (c.val * 1 + 0) * 224 + w.val = c.val * 224 + w.val
    omega
  exact extractStridedSlice_apply o y hs (ix3 c (0 : Fin 1) w) (ix3 c ⟨o 1, hi⟩ w) (fun a => by
    match a with
    | ⟨0, _⟩ => show c.val = o 0 + c.val; omega
    | ⟨1, _⟩ => show o 1 = o 1 + 0; omega
    | ⟨2, _⟩ => show w.val = o 2 + w.val; omega)

end Cert.KernelIdeal.BodyValue

end
-- ==== Proof.KBlock.lean ====
/-
  The output block as one function of the input block.

  The body's 56 stores write rows 0 … 55 (the third axis) of the output block [1, 224, 56, 96], row i receiving row i
  of the body's value y transposed.  So whatever the order of the stores, entry (0, w, i, c) of the block is
  y[c, i, w]: the log-softmax of pixel (i, w)'s channel values at channel c.
-/
import proofs.«131496_g53626961658373_cont_9to1c4b_865_29_alg».proof.Proof.Gen.KernelIdeal.Frame
import proofs.«131496_g53626961658373_cont_9to1c4b_865_29_alg».proof.Proof.KBody

set_option maxRecDepth 16384

noncomputable section

namespace Cert.KernelIdeal.BodyValue

open Idealize.ShloMosaic Idealize.ShloMosaic.ValueIdx Cert.KernelIdeal Cert.KernelIdeal.Gen Cert.LogSoftmax

/-- Entry (0, w, i, c) of the output block: the log-softmax of pixel (i, w)'s channel values at c. -/
def blockFn (x : Vec Ideal S1x96x56x224 .f32) : S1x224x56x96.Idx → EReal := fun y =>
  lsm (bchan x ⟨(y 2).val, (y 2).isLt⟩ ⟨(y 1).val, (y 1).isLt⟩) ⟨(y 3).val, (y 3).isLt⟩

/-- The store of row o₁: its payload, at a local index, is the block function at the index the store's rectangle
    places it at. -/
theorem piece_eq (x : Vec Ideal S1x96x56x224 .f32) (o : Fin 3 → ℕ) (hs : S96x56x224.Slices o S96x1x224)
    (hi : o 1 < 56) (h0 : o 0 = 0) (h2 : o 2 = 0) (off : Fin 4 → ℕ) (hoff : off = ![0, 0, o 1, 0])
    (inb : ∀ a, off a + S1x224x1x96.size a ≤ S1x224x56x96.size a)
    (j : (Rect.unit (s := S1x224x56x96) off S1x224x1x96.size inb).shape.Idx) :
    shapeCast S1x224x1x96 (transpose S224x96 [1, 0] (shapeCast S96x224 (extractStridedSlice S96x1x224 o (k0_pay5 (F := Ideal) x) hs)
      shapeCasts_S96x1x224_S96x224) transposes_S96x224_p1_0_S224x96) shapeCasts_S224x96_S1x224x1x96 j
      = blockFn x ((Rect.unit (s := S1x224x56x96) off S1x224x1x96.size inb).emb j) := by
  subst hoff
  obtain ⟨u, w, u', c, rfl⟩ : ∃ (u : Fin 1) (w : Fin 224) (u' : Fin 1) (c : Fin 96), j = ix4 u w u' c :=
    ⟨j 0, j 1, j 2, j 3, eq_ix4 j⟩
  have hE : (Rect.unit (s := S1x224x56x96) ![0, 0, o 1, 0] S1x224x1x96.size inb).emb (ix4 u w u' c)
      = ix4 (0 : Fin 1) w (⟨o 1, hi⟩ : Fin 56) c := funext fun a => Fin.ext (by
    have := u.isLt; have := u'.isLt
    match a with
    | ⟨0, _⟩ => show 0 + 1 * u.val = 0; omega
    | ⟨1, _⟩ => show 0 + 1 * w.val = w.val; omega
    | ⟨2, _⟩ => show o 1 + 1 * u'.val = o 1; omega
    | ⟨3, _⟩ => show 0 + 1 * c.val = c.val; omega)
  rw [hE]
  exact (slab_apply (k0_pay5 (F := Ideal) x) o hs hi h0 h2 u w u' c).trans (y_apply x c ⟨o 1, hi⟩ w)

theorem zero4 : (![0, 0, 0, 0] : Fin 4 → ℕ) = fun _ => 0 := funext fun a => by fin_cases a <;> rfl

/-- What the body leaves in the output's buffer is the block function of the input block. -/
theorem out_eq (x0 : Vec Ideal S1x96x56x224 .f32) : out0_1 (F := Ideal) x0 = blockFn x0 := by
  funext y
  unfold out0_1
  refine (View.canon_apply_of_pieces (blockFn (View.ld x0 r0_0)) _ ?_ y (cover0_1 _ _ _ _ _ _ _ _ _ _ _ _ _ _ _ _ _ _ _ _ _ _ _ _ _ _ _ _ _ _ _ _ _ _ _ _ _ _ _ _ _ _ _ _ _ _ _ _ _ _ _ _ _ _ _ _ y)).trans ?_
  · refine List.forall_iff_forall_mem.mp ?_
    simp only [List.Forall]
    repeat' apply And.intro
    all_goals (intro j; exact piece_eq _ _ (by decide) (by decide) (by rfl) (by rfl) _ (by rfl) (by decide) j)
  · rw [View.ld_unit_zero (S := S1x96x56x224) zero4]

end Cert.KernelIdeal.BodyValue

end
-- ==== Proof.KArray.lean ====
/-
  From blocks to the array, and through the reshape after the region.

  Grid point t = (b, q) of the 8 × 4 grid reads block (b, 0, q, 0) of the input — image b, all channels, rows
  56q … 56q + 55, all columns — and writes back block (b, 0, q, 0) of the [8, 224, 224, 96] output.  Entry
  (0, w, i, c) of what it writes is the log-softmax of pixel (56q + i, w) of image b at channel c, which is entry
  (b, w, 56q + i, c) of the specification's image; the 32 blocks tile the output, so the output array is that image.
  The host then reshapes it to 401408 rows of 96 channels, row (b·224 + w)·224 + h: the specification's result.
-/
import proofs.«131496_g53626961658373_cont_9to1c4b_865_29_alg».proof.Proof.Gen.KernelIdeal.Frame
import proofs.«131496_g53626961658373_cont_9to1c4b_865_29_alg».proof.Proof.KBlock
import Idealize.ShloMosaic.Lib.Pipeline.Value
import Idealize.ShloMosaic.Lib.StableHlo.Run

set_option maxRecDepth 16384

noncomputable section

namespace Cert.KernelIdeal.ArrayValue

open Idealize.ShloMosaic Idealize.ShloMosaic.TcCoe Idealize.ShloMosaic.ValueIdx Idealize.SL.Sem
open Cert.KernelIdeal Cert.KernelIdeal.Gen Cert.KernelIdeal.BodyValue Cert.LogSoftmax
open Idealize.ShloMosaic.Pipeline (Dat)

variable (m : (ℓ : Loc nD τ sig) → Buf (Elt Ideal) ℓ) (ρ : Dev nD → PrngReg)

/-- The input array as launched. -/
abbrev xarr (c : Dev nD) : S8x96x224x224.Idx → EReal := m ((c : Thread nD τ).loc main_arg0)

/-- The printed index maps over the grid: both windows sit at block (b, 0, q, 0). -/
theorem idx_facts : ∀ t : Fin cfg0.N,
    win0_0.index t (0 : Fin 4) = win0_1.index t (0 : Fin 4) ∧ win0_0.index t (1 : Fin 4) = 0
    ∧ win0_0.index t (2 : Fin 4) = win0_1.index t (2 : Fin 4) ∧ win0_0.index t (3 : Fin 4) = 0
    ∧ win0_1.index t (1 : Fin 4) = 0 ∧ win0_1.index t (3 : Fin 4) = 0
    ∧ win0_1.index t (0 : Fin 4) ≤ 7 ∧ win0_1.index t (2 : Fin 4) ≤ 3 :=
  (by decide +kernel : ∀ t : Fin grid0.N, _)

/-- Every block (b, 0, q, 0) is some point's. -/
theorem idx_onto : ∀ (b : Fin 8) (q : Fin 4), ∃ t : Fin cfg0.N, win0_1.index t = ![b.val, 0, q.val, 0] :=
  (by decide +kernel : ∀ (b : Fin 8) (q : Fin 4), ∃ t : Fin grid0.N, win0_1.index t = ![b.val, 0, q.val, 0])

/-- What point t writes back is block t of the specification's image of the input. -/
theorem flushed_eq (c : Dev nD) (t : Fin cfg0.N) :
    (dats m 0 c).flushed 1 t = ((cfg0.win 1).blk t).view.read (Elt Ideal) (image (xarr m c)) := by
  show (cfg0.win 1).cut (grid0.coords t) ((dats m 0 c).after 1 t) = _
  rw [after0_1, out_eq]
  obtain ⟨e0, e1, e2, e3, e4, e5, -, -⟩ := idx_facts t
  funext j
  show blockFn (iblk m c 0 t) j = image (xarr m c) (((cfg0.win 1).blk t).view.emb j)
  have hj0 : (j 0).val < 1 := (j 0).isLt
  have hj1 : (j 1).val < 224 := (j 1).isLt
  have hj2 : (j 2).val < 56 := (j 2).isLt
  have hj3 : (j 3).val < 96 := (j 3).isLt
  unfold blockFn image
  refine congrArg₂ lsm (funext fun k => ?_) (Fin.ext ?_)
  · show V m c main_arg0 (((cfg0.win 0).blk t).view.emb (ix4 (0 : Fin 1) k ⟨(j 2).val, hj2⟩ ⟨(j 1).val, hj1⟩)) = _
    unfold chan
    refine congrArg (xarr m c) (funext fun a => Fin.ext ?_)
    match a with
    | ⟨0, _⟩ => show win0_0.index t (0 : Fin 4) * 1 + 1 * 0 = win0_1.index t (0 : Fin 4) * 1 + 1 * (j 0).val; omega
    | ⟨1, _⟩ => show win0_0.index t (1 : Fin 4) * 96 + 1 * k.val = k.val; omega
    | ⟨2, _⟩ => show win0_0.index t (2 : Fin 4) * 56 + 1 * (j 2).val = win0_1.index t (2 : Fin 4) * 56 + 1 * (j 2).val; omega
    | ⟨3, _⟩ => show win0_0.index t (3 : Fin 4) * 224 + 1 * (j 1).val = win0_1.index t (1 : Fin 4) * 224 + 1 * (j 1).val; omega
  · show (j 3).val = win0_1.index t (3 : Fin 4) * 96 + 1 * (j 3).val; omega

/-- An index of the output array is in point t's block iff each coordinate is in the block's range. -/
theorem mem_blk (t : Fin cfg0.N) (i : S8x224x224x96.Idx) :
    i ∈ ((cfg0.win 1).blk t).view.set ↔ ∀ a : Fin 4, win0_1.index t a * S1x224x56x96.size a ≤ (i a).val
      ∧ (i a).val < win0_1.index t a * S1x224x56x96.size a + S1x224x56x96.size a := by
  show i ∈ ((View.whole main_v0).slice (win0_1.rect t)).set ↔ _
  rw [View.set_slice_whole, Rect.mem_set_unit]
  exact Iff.rfl

/-- Every index of the output array is in the block of the point at (its image, its row div 56). -/
theorem cover (i : S8x224x224x96.Idx) :
    ∃ t : Fin cfg0.N, (cfg0.win 1).flush t = true ∧ i ∈ ((cfg0.win 1).blk t).view.set := by
  have hi0 : (i 0).val < 8 := (i 0).isLt
  have hi1 : (i 1).val < 224 := (i 1).isLt
  have hi2 : (i 2).val < 224 := (i 2).isLt
  have hi3 : (i 3).val < 96 := (i 3).isLt
  obtain ⟨t, ht⟩ := idx_onto ⟨(i 0).val, hi0⟩ ⟨(i 2).val / 56, by omega⟩
  have q0 : win0_1.index t (0 : Fin 4) = (i 0).val := congrFun ht 0
  have q1 : win0_1.index t (1 : Fin 4) = 0 := congrFun ht 1
  have q2 : win0_1.index t (2 : Fin 4) = (i 2).val / 56 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 224 ≤ (i 1).val ∧ (i 1).val < win0_1.index t (1 : Fin 4) * 224 + 224; omega
  | ⟨2, _⟩ => show win0_1.index t (2 : Fin 4) * 56 ≤ (i 2).val ∧ (i 2).val < win0_1.index t (2 : Fin 4) * 56 + 56; omega
  | ⟨3, _⟩ => show win0_1.index t (3 : Fin 4) * 96 ≤ (i 3).val ∧ (i 3).val < win0_1.index t (3 : Fin 4) * 96 + 96; omega

/-- The output array after the region is the specification's image of the input. -/
theorem final (c : Dev nD) : (dats m 0 c).arrAt 1 cfg0.N = image (xarr m c) :=
  (dats m 0 c).arrAt_eq_of_cover 1 (image (xarr m c)) (fun t _ => flushed_eq m c t) cover

/-- The image flattened to rows is the specification's result: row r is pixel (r / 50176, r mod 224, r / 224 mod 224). -/
theorem reshape_image (X : S8x96x224x224.Idx → EReal) :
    shapeCast S401408x96 (image X) shapeCasts_S8x224x224x96_S401408x96 = result X := by
  funext i
  have h0 : (i 0).val < 401408 := (i 0).isLt
  have h1 : (i 1).val < 96 := (i 1).isLt
  refine (shapeCast_apply (image X) shapeCasts_S8x224x224x96_S401408x96 i
    (ix4 (⟨(i 0).val / 50176, by omega⟩ : Fin 8) (⟨(i 0).val / 224 % 224, by omega⟩ : Fin 224)
      (⟨(i 0).val % 224, by omega⟩ : Fin 224) (⟨(i 1).val, h1⟩ : Fin 96)) ?_).trans ?_
  · rw [Shape.rowMajor_val_four, Shape.rowMajor_val_two]
    show ((((i 0).val / 50176) * 224 + (i 0).val / 224 % 224) * 224 + (i 0).val % 224) * 96 + (i 1).val = (i 0).val * 96 + (i 1).val
    omega
  · rfl

/-- The reshape after the region, read: the program's result buffer ends at the specification's result. -/
theorem tail_eq (c : Dev nD) :
    Pipeline.afterTail₀ cfgs (dats m) 0 (V0 m) [hostOps1] c main_v1 = result (xarr m c) := by
  unfold Pipeline.afterTail₀
  show StableHlo.after hostOps1 _ (Proc.devRef .tc main_v1) = _
  after_results
  rw [Pipeline.withArrays_arr spec0 launch0.win.arr_inj c _ _ 1, final]
  exact reshape_image (xarr m c)

/-- The kernel's run, read: the result at the specification's result of the input, the input unchanged. -/
theorem run : θ_run defs (onTc (τ := τ) (main (F := Ideal))) ⟨m, fun _ => 0, ρ⟩ fun r => ∀ c : Dev nD,
      r.2.mem ((c.tc : Thread nD τ).loc main_v1) = result (xarr m c)
      ∧ r.2.mem ((c.tc : Thread nD τ).loc main_arg0) = m ((c.tc : Thread nD τ).loc main_arg0) :=
  (θ_run defs _ _).mono (fun _ h c =>
      ⟨((h c).2 main_v1 (Pipeline.mem_restRefs_of main_v1 rfl (by decide))).trans (tail_eq m c),
        ((h c).1 0).trans (((dats m 0 c).arrAt_in 0 rfl _).trans ((A_eq m c 0).trans (V_main_arg0 m c)))⟩)
    (run_main m ρ)

end Cert.KernelIdeal.ArrayValue

end
-- ==== Proof.Finite.lean ====
/-
  From the precondition to "every input entry is a real number".

  The precondition says that |x| < +∞ at every entry x of the input, all the comparisons joined by "and".  On the
  extended reals |x| is the larger of x and -x, so the comparison keeps x away from +∞ and from -∞.
-/
import proofs.«131496_g53626961658373_cont_9to1c4b_865_29_alg».proof.Pre_finite_inputs
import Idealize.ShloMosaic.Lib.ReduceAll
import Idealize.ShloMosaic.Lib.ValueIdx
import Idealize.ShloMosaic.PureOps.Ideal

noncomputable section

namespace Cert.FiniteInputs

open Idealize.ShloMosaic Cert.Pre_finite_inputs

theorem ofBits_pos_inf : Ideal.ofBits .f32 0x7F800000#32 = (⊤ : EReal) := by
  simp [Ideal.ofBits, Ideal.ieee]

/-- An extended real whose absolute value compares below +∞ is a real number. -/
theorem real_of_abs_lt (x : EReal) (h : Ideal.cmp .olt (max x (-x)) (Ideal.ofBits .f32 0x7F800000#32) = 1#1) :
    x ≠ ⊥ ∧ x ≠ ⊤ := by
  rw [ofBits_pos_inf] at h
  have h' : max x (-x) < ⊤ := by
    by_contra hn
    simp [Ideal.cmp, hn] at h
  constructor
  · intro hb; rw [hb] at h'; simp at h'
  · intro ht; rw [ht] at h'; simp at h'

instance : Subsingleton S_.Idx := ⟨fun a b => funext fun d => d.elim0⟩

/-- Under the precondition every entry of the input is a real number. -/
theorem finite_of_pre [Cert.Pre_finite_inputs.Facts] (X : FVec Ideal S8x96x224x224 .f32)
    (h : Cert.Pre_finite_inputs.fn (F := Ideal) X = fun _ => 1#1) (j : S8x96x224x224.Idx) : X j ≠ ⊥ ∧ X j ≠ ⊤ := by
  have e := congrFun h ValueIdx.ix0
  dsimp only [Cert.Pre_finite_inputs.fn] at e
  exact real_of_abs_lt (X j) (Host.reduce_andi_all _ _ _ _ _ e j)

end Cert.FiniteInputs

end
-- ==== Proof.lean ====
/-
  The kernel and its reference compute the log-softmax over the 96 channels of an [8, 96, 224, 224] image batch, laid
  out as 401408 rows (image, column, row) of 96 channels.

  The kernel works on blocks of 56 image rows: per pixel it takes the largest channel value M and the sum S of
  exp (v - M), forms v - (M + log S), and stores each row of the block transposed into a [8, 224, 224, 96] array that
  the host then flattens.  The reference transposes and flattens first and subtracts in two steps, (v - M) - log S.
  On the extended reals the two agree as soon as M is a real number, and M is one when the pixel's values are: this is
  where the precondition (every input entry finite) is used.  Both sides are shown equal to one function of the input
  (Proof/Spec.lean `result`): the kernel's by reading its 56 stores back as one block function, tiling the output
  with the 32 blocks and reading the reshape at an index (Proof/KBody.lean, KBlock.lean, KArray.lean); the reference's
  by reading its operations one at a time at an index (Proof/RefValue.lean).

  The three frames: the two kernels' are the generated frame certificates; the reference's is its run with the
  result dropped.  The idealization rewrote nothing, so `preserves` is `True`.
-/
import proofs.«131496_g53626961658373_cont_9to1c4b_865_29_alg».proof.Defs
import proofs.«131496_g53626961658373_cont_9to1c4b_865_29_alg».proof.Proof.Gen.Kernel
import proofs.«131496_g53626961658373_cont_9to1c4b_865_29_alg».proof.Proof.Gen.Kernel.Skeleton
import proofs.«131496_g53626961658373_cont_9to1c4b_865_29_alg».proof.Proof.Gen.Kernel.Launch
import proofs.«131496_g53626961658373_cont_9to1c4b_865_29_alg».proof.Proof.Gen.Kernel.Points
import proofs.«131496_g53626961658373_cont_9to1c4b_865_29_alg».proof.Proof.Gen.Kernel.Frame
import proofs.«131496_g53626961658373_cont_9to1c4b_865_29_alg».proof.Proof.Gen.KernelIdeal
import proofs.«131496_g53626961658373_cont_9to1c4b_865_29_alg».proof.Proof.Gen.KernelIdeal.Skeleton
import proofs.«131496_g53626961658373_cont_9to1c4b_865_29_alg».proof.Proof.Gen.KernelIdeal.Launch
import proofs.«131496_g53626961658373_cont_9to1c4b_865_29_alg».proof.Proof.Gen.KernelIdeal.Points
import proofs.«131496_g53626961658373_cont_9to1c4b_865_29_alg».proof.Proof.Gen.KernelIdeal.Frame
import proofs.«131496_g53626961658373_cont_9to1c4b_865_29_alg».proof.Proof.Gen.ReferenceIdeal
import proofs.«131496_g53626961658373_cont_9to1c4b_865_29_alg».proof.Proof.Gen.Pre_finite_inputs
import proofs.«131496_g53626961658373_cont_9to1c4b_865_29_alg».proof.Proof.RefRun
import proofs.«131496_g53626961658373_cont_9to1c4b_865_29_alg».proof.Proof.RefRead
import proofs.«131496_g53626961658373_cont_9to1c4b_865_29_alg».proof.Proof.RefValue
import proofs.«131496_g53626961658373_cont_9to1c4b_865_29_alg».proof.Proof.KArray
import proofs.«131496_g53626961658373_cont_9to1c4b_865_29_alg».proof.Proof.Finite
import Idealize.ShloMosaic.Adequacy
import Idealize.ShloMosaic.Init

noncomputable section

namespace Cert.Proof

open Idealize.ShloMosaic Idealize.SL.Sem Cert.LogSoftmax

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- From memories that agree on the input, under the precondition, both programs end with the specification's result
    of the input: the kernel by its run read back, the reference by its operations read at an index and the law that
    joins the two spellings of the subtraction on real values. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => result (Cert.KernelIdeal.ArrayValue.xarr m c), Cert.KernelIdeal.ArrayValue.run m ρ, ?_⟩
  refine (θ_run Cert.ReferenceIdeal.defs _ _).mono (fun _ h c => ⟨?_, (h c).2⟩)
    (Cert.ReferenceIdeal.ValueP.run (F := Ideal) m' ρ')
  rw [(h c).1, Cert.ReferenceIdeal.ReadP.val_main_v2_eq, hagree c]
  exact Cert.ReferenceIdeal.RefValue.ref_eq _ (Cert.FiniteInputs.finite_of_pre _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
